-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x8192 : Shape := ⟨3, ![8, 4096, 8192]⟩
abbrev S4096x8192 : Shape := ⟨2, ![4096, 8192]⟩
abbrev S8192 : Shape := ⟨1, ![8192]⟩
abbrev S_ : Shape := ⟨0, ![]⟩

class Facts : Prop where
  bcast_S_S8x4096x8192 : S_.BroadcastsInDim S8x4096x8192 (![] : Fin 0 → Fin S8x4096x8192.rank)
  reducesTo_S8x4096x8192_S_d0_1_2 : S8x4096x8192.ReducesTo [0, 1, 2] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x4096x8192 .f32) (main_arg1 : FVec F S4096x8192 .f32) (main_arg2 : FVec F S8192 .f32) : IVec S_ 1 :=
  let main_v0 : FVec F S8x4096x8192 .f32 := Host.absf main_arg0
  let main_cst : FVec F S_ .f32 := constant S_ .f32 0x7F800000#32
  let main_v1 : FVec F S8x4096x8192 .f32 := broadcastInDim S8x4096x8192 ![] bcast_S_S8x4096x8192 main_cst
  let main_v2 : IVec S8x4096x8192 1 := cmpf .olt main_v0 main_v1
  let main_c : IVec S_ 1 := constantI S_ 1 1#1
  let main_v3 : IVec S_ 1 := (fun x v => Host.reduce IntOp.andi x v reducesTo_S8x4096x8192_S_d0_1_2 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x4096x8192 : Shape := ⟨3, ![8, 4096, 8192]⟩
abbrev S4096x8192 : Shape := ⟨2, ![4096, 8192]⟩
abbrev S8192 : Shape := ⟨1, ![8192]⟩
abbrev S1x8192 : Shape := ⟨2, ![1, 8192]⟩
abbrev S8x32x8192 : Shape := ⟨3, ![8, 32, 8192]⟩
abbrev S32x8192 : Shape := ⟨2, ![32, 8192]⟩
abbrev S32 : Shape := ⟨1, ![32]⟩
abbrev S32x1 : Shape := ⟨2, ![32, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x8192, .f32⟩
  | .hbm, ⟨1, _⟩ => ⟨S4096x8192, .f32⟩
  | .hbm, ⟨2, _⟩ => ⟨S8192, .f32⟩
  | .hbm, ⟨3, _⟩ => ⟨S1x8192, .f32⟩
  | .hbm, ⟨4, _⟩ => ⟨S4096x8192, .f32⟩
  | .hbm, ⟨5, _⟩ => ⟨S4096x8192, .f32⟩
  | .local _ .vmem, ⟨0, _⟩ => ⟨S8x32x8192, .f32⟩
  | .local _ .vmem, ⟨1, _⟩ => ⟨S8x32x8192, .f32⟩
  | .local _ .vmem, ⟨2, _⟩ => ⟨S32x8192, .f32⟩
  | .local _ .vmem, ⟨3, _⟩ => ⟨S32x8192, .f32⟩
  | .local _ .vmem, ⟨4, _⟩ => ⟨S1x8192, .f32⟩
  | .local _ .vmem, ⟨5, _⟩ => ⟨S32x8192, .f32⟩
  | .local _ .vmem, ⟨6, _⟩ => ⟨S32x8192, .f32⟩
  | .local _ .vmem, ⟨7, _⟩ => ⟨S32x8192, .f32⟩
  | .local _ .vmem, ⟨8, _⟩ => ⟨S32x8192, .f32⟩
  | _, _ => ⟨S8x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S1x8192 : S8192.ShapeCasts S1x8192
  inb_S8x32x8192_S8x32x8192_0_0_0 : ∀ a, (![0, 0, 0] : Fin 3 → Nat) a + S8x32x8192.size a ≤ S8x32x8192.size a
  h_S8x32x8192 : 0 < S8x32x8192.numel
  reduces_S8x32x8192_S32x8192 : S8x32x8192.Reduces [0] S32x8192
  inb_S32x8192_S32x8192_0_0 : ∀ a, (![0, 0] : Fin 2 → Nat) a + S32x8192.size a ≤ S32x8192.size a
  h_S32x8192 : 0 < S32x8192.numel
  reduces_S32x8192_S32 : S32x8192.Reduces [1] S32
  shapeCasts_S32_S32x1 : S32.ShapeCasts S32x1
  broadcasts_S32x1_S32x8192 : S32x1.Broadcasts S32x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S32x8192 : S1x8192.Broadcasts S32x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x8192.size a ≤ S8x4096x8192.size a
  hwx0_0 : ∀ i : grid0.Coords, EltTy.bits .f32 = 32 ∨ (Rect.block (s := S8x4096x8192) S8x32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8192.size a ≤ S4096x8192.size a
  hwx0_1 : ∀ i : grid0.Coords, EltTy.bits .f32 = 32 ∨ (Rect.block (s := S4096x8192) S32x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x8192.size a ≤ S4096x8192.size a
  hwx0_3 : ∀ i : grid0.Coords, EltTy.bits .f32 = 32 ∨ (Rect.block (s := S4096x8192) S32x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x8192.size a ≤ S4096x8192.size a
  hwx0_4 : ∀ i : grid0.Coords, EltTy.bits .f32 = 32 ∨ (Rect.block (s := S4096x8192) S32x8192.size (cc0_transform_4 i) (hinb0_4 i)).WholeWords (EltTy.packing .f32)

variable [Facts₀]

abbrev win0_0 : Pipeline.Window sig grid0 :=
  Pipeline.Window.ofSpec (Memref.whole main_arg0) S8x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S32x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S32x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x8192 : Shape := ⟨3, ![8, 4096, 8192]⟩
abbrev S4096x8192 : Shape := ⟨2, ![4096, 8192]⟩
abbrev S8192 : Shape := ⟨1, ![8192]⟩
abbrev S_ : Shape := ⟨0, ![]⟩
abbrev S4096 : Shape := ⟨1, ![4096]⟩
abbrev S4096x1 : Shape := ⟨2, ![4096, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x8192, .f32⟩
  | .hbm, ⟨1, _⟩ => ⟨S4096x8192, .f32⟩
  | .hbm, ⟨2, _⟩ => ⟨S8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x8192, .f32⟩
  | .hbm, ⟨18, _⟩ => ⟨S4096x8192, .f32⟩
  | .hbm, ⟨19, _⟩ => ⟨S1x8192, .f32⟩
  | .hbm, ⟨20, _⟩ => ⟨S4096x8192, .f32⟩
  | .hbm, ⟨21, _⟩ => ⟨S4096x8192, .f32⟩
  | _, _ => ⟨S8x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x4096x8192_S4096x8192_d0 : S8x4096x8192.ReducesTo [0] S4096x8192
  h_S_ : 0 < S_.numel
  reducesTo_S4096x8192_S4096_d1 : S4096x8192.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)

variable [Facts₀]

class Facts : Prop extends Facts₀ where

variable [Facts]
-- ==== Proof.Spec.lean ====
/-
  The function both programs compute, written once over the three argument arrays.

  The arguments are the eight partial activations `x` of shape [8, 4096, 8192], the residual `r` of shape
  [4096, 8192] and the weight row `w` of shape [8192]. At token `t` and hidden index `h`:

    summed t h  =  (sum over the eight partials p of x[p, t, h])  +  r[t, h]
    scale t     =  rsqrt ( (sum over all h of summed t h squared) / 8192  +  eps )
    normed t h  =  summed t h * scale t * w[h]

  with `8192` and `eps` the two float words both programs print; the words are kept as words, since the same word
  on both sides never has to be evaluated. Everything is over the extended reals, where addition and multiplication
  are commutative and associative, so no finiteness of the inputs is needed for what follows.
-/
import Idealize.ShloMosaic.PureOps.Ideal
import Idealize.ShloMosaic.Lib.ValueIdx

noncomputable section

namespace Cert.Spec

open Idealize.ShloMosaic Idealize.ShloMosaic.ValueIdx

/-- The shapes of the partial activations, of the residual (and of both results), and of the weight row. -/
abbrev SX : Shape := ⟨3, ![8, 4096, 8192]⟩
abbrev SR : Shape := ⟨2, ![4096, 8192]⟩
abbrev SW : Shape := ⟨1, ![8192]⟩

/-- The eight partial activations added up, plus the residual: the second result at `(t, h)`. -/
def summed (x : SX.Idx → EReal) (r : SR.Idx → EReal) (t : Fin 4096) (h : Fin 8192) : EReal :=
  (∑ p : Fin 8, x (ix3 p t h)) + r (ix2 t h)

/-- The reciprocal root of token `t`'s mean square plus epsilon: the mean is the sum of squares over the whole
    hidden axis divided by the word for `8192`. -/
def scale (x : SX.Idx → EReal) (r : SR.Idx → EReal) (t : Fin 4096) : EReal :=
  Ideal.rsqrt (Ideal.div (∑ h : Fin 8192, summed x r t h * summed x r t h) (Ideal.ofBits .f32 0x46000000#32)
    + Ideal.ofBits .f32 0x3727C5AC#32)

/-- The second result as an array. -/
def residualOut (x : SX.Idx → EReal) (r : SR.Idx → EReal) : SR.Idx → EReal :=
  fun i => summed x r (i 0) (i 1)

/-- The first result as an array: the summed row scaled by its reciprocal root mean square, then by the weight. -/
def normed (x : SX.Idx → EReal) (r : SR.Idx → EReal) (w : SW.Idx → EReal) : SR.Idx → EReal :=
  fun i => summed x r (i 0) (i 1) * scale x r (i 0) * w (ix1 (i 1))

end Cert.Spec

end
-- ==== Proof.RefValue.lean ====
/-
  The reference's two results are the specification.

  The reference adds the eight partial activations along the leading axis (a host sum from the zero word), adds the
  residual, squares, sums each row over the hidden axis, divides by the word for 8192, adds epsilon, takes the
  reciprocal root, broadcasts it along the row, multiplies, and multiplies by the weight row broadcast down the
  tokens. Read one operation at a time at the entry `(t, h)`, every broadcast only re-addresses its operand, the two
  host sums are the initial zero plus a finite sum, and what is left is `Spec.summed` and `Spec.normed` at `(t, h)`
  term for term.
-/
import proofs.«123969_j50646254354848_1_alg».proof.Proof.Gen.ReferenceIdeal.Read
import proofs.«123969_j50646254354848_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The entry of the partial activations that the first host sum reads for result entry `(t, h)` and summand `p`. -/
theorem idx_partial (t : Fin 4096) (h : Fin 8192) (p : Fin 8) : idx_main_v0 (ix2 t h) p = ix3 p t h :=
  funext fun a => Fin.ext (by match a with | ⟨0, _⟩ => rfl | ⟨1, _⟩ => rfl | ⟨2, _⟩ => rfl)

/-- The row sum behind result entry `(t, h)` runs over row `t`: the broadcasts from [4096] to [4096, 1] to
    [4096, 8192] keep the token coordinate and drop the hidden one. -/
theorem idx_row (t : Fin 4096) (h k : Fin 8192) :
    idx_main_v3 (idx_main_v4 (idx_main_v10 (ix2 t h))) k = ix2 t k :=
  funext fun a => Fin.ext (by match a with | ⟨0, _⟩ => rfl | ⟨1, _⟩ => rfl)

/-- The weight behind result entry `(t, h)` is the weight at `h`: the broadcasts from [8192] to [1, 8192] to
    [4096, 8192] keep the hidden coordinate and drop the token one. -/
theorem idx_weight (t : Fin 4096) (h : Fin 8192) : idx_main_v12 (idx_main_v13 (ix2 t h)) = ix1 h :=
  funext fun a => Fin.ext (by match a with | ⟨0, _⟩ => rfl)

/-- The reference's second result at `(t, h)`: the eight partials added from zero, plus the residual. -/
theorem residual_at (x0 : (⟨S8x4096x8192, .f32⟩ : BufTy).Contents (Elt Ideal))
    (x1 : (⟨S4096x8192, .f32⟩ : BufTy).Contents (Elt Ideal)) (t : Fin 4096) (h : Fin 8192) :
    val_main_v1 (F := Ideal) x0 x1 (ix2 t h) = Spec.summed x0 x1 t h := by
  rw [val_main_v1_apply, val_main_v0_apply, val_main_cst_apply]
  simp only [Ideal.addf_def, Ideal.ofBits_def, Ideal.ofBits_zero_f32, zero_add, idx_partial]
  rfl

/-- The reference's first result at `(t, h)`. -/
theorem normed_at (x0 : (⟨S8x4096x8192, .f32⟩ : BufTy).Contents (Elt Ideal))
    (x1 : (⟨S4096x8192, .f32⟩ : BufTy).Contents (Elt Ideal)) (x2 : (⟨S8192, .f32⟩ : BufTy).Contents (Elt Ideal))
    (t : Fin 4096) (h : Fin 8192) :
    val_main_v14 (F := Ideal) x0 x1 x2 (ix2 t h) = Spec.summed x0 x1 t h * Spec.scale x0 x1 t * x2 (ix1 h) := by
  simp only [val_main_v14_apply, val_main_v11_apply, val_main_v13_apply, val_main_v12_apply, val_main_v10_apply,
    val_main_v9_apply, val_main_v8_apply, val_main_v6_apply, val_main_v7_apply, val_main_cst_2_apply,
    val_main_v5_apply, val_main_cst_1_apply, val_main_v4_apply, val_main_v3_apply, val_main_cst_0_apply,
    val_main_v2_apply, idx_row, idx_weight, residual_at, Ideal.mulf_def, Ideal.addf_def, Ideal.hostDivf_def,
    Ideal.hostUnary_rsqrt_def, Ideal.ofBits_def, Ideal.ofBits_zero_f32, zero_add]
  rfl

/-- The reference's second result, as an array, is the specification's. -/
theorem residual_eq (x0 : (⟨S8x4096x8192, .f32⟩ : BufTy).Contents (Elt Ideal))
    (x1 : (⟨S4096x8192, .f32⟩ : BufTy).Contents (Elt Ideal)) :
    val_main_v1 (F := Ideal) x0 x1 = Spec.residualOut x0 x1 := by
  funext i
  obtain ⟨t, h, rfl⟩ : ∃ (t : Fin 4096) (h : Fin 8192), i = ix2 t h := ⟨i 0, i 1, eq_ix2 i⟩
  exact residual_at x0 x1 t h

/-- The reference's first result, as an array, is the specification's. -/
theorem normed_eq (x0 : (⟨S8x4096x8192, .f32⟩ : BufTy).Contents (Elt Ideal))
    (x1 : (⟨S4096x8192, .f32⟩ : BufTy).Contents (Elt Ideal)) (x2 : (⟨S8192, .f32⟩ : BufTy).Contents (Elt Ideal)) :
    val_main_v14 (F := Ideal) x0 x1 x2 = Spec.normed x0 x1 x2 := by
  funext i
  obtain ⟨t, h, rfl⟩ : ∃ (t : Fin 4096) (h : Fin 8192), i = ix2 t h := ⟨i 0, i 1, eq_ix2 i⟩
  exact normed_at x0 x1 x2 t h

end Cert.ReferenceIdeal.RefValue

end
-- ==== Proof.KernelBlock.lean ====
/-
  What one grid point leaves in its two output blocks, entry by entry.

  A grid point holds a block of the partial activations of shape [8, 32, 8192] (thirty-two tokens, all eight
  partials, the whole hidden axis), the matching [32, 8192] block of the residual, and the [1, 8192] weight row. For
  row `p` of the block and hidden index `h` write

    bsum p h  =  (sum over the eight partials k of xblock[k, p, h])  +  rblock[p, h]
    bscale p  =  rsqrt ( (sum over all h of bsum p h squared) / 8192  +  eps ).

  The body stores `bsum` whole into the second output block and `bsum p h * bscale p * wrow[0, h]` into the first.
  Both reductions are sums over one axis, so at the extended reals each is a finite sum over that axis's
  coordinates: the leading-axis sum at `(p, h)` runs over `(k, p, h)`, the row sum at `p` over `(p, h)`. The shape
  cast of the row sums to a column, the broadcast of that column along the row and the broadcast of the weight row
  down the rows only re-address their operands; the generated value leg has already resolved them to the indices
  `(p)`, `(p, h)` and `(0, h)`, which is where this module starts.
-/
import proofs.«123969_j50646254354848_1_alg».proof.Proof.Gen.KernelIdeal.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx

/-- The eight partials of the block added up at `(p, h)`, plus the residual block there. -/
def bsum (x0 : FVec Ideal S8x32x8192 .f32) (x1 : FVec Ideal S32x8192 .f32) (p : Fin 32) (h : Fin 8192) : EReal :=
  (∑ k : Fin 8, x0 (ix3 k p h)) + x1 (ix2 p h)

/-- The reciprocal root of row `p`'s mean square plus epsilon. -/
def bscale (x0 : FVec Ideal S8x32x8192 .f32) (x1 : FVec Ideal S32x8192 .f32) (p : Fin 32) : EReal :=
  Ideal.rsqrt (Ideal.div (∑ h : Fin 8192, bsum x0 x1 p h * bsum x0 x1 p h) (Ideal.ofBits .f32 0x46000000#32)
    + Ideal.ofBits .f32 0x3727C5AC#32)

/-- The body's sum of the block over its leading axis, as a vector. -/
abbrev laneSum (x0 : FVec Ideal S8x32x8192 .f32) : FVec Ideal S32x8192 .f32 :=
  multiReduction .add [0] S32x8192 x0 0x00000000#32 reduces_S8x32x8192_S32x8192 (.inl rfl) rfl

/-- The sum over the leading axis at `(p, h)` is the sum of the eight entries `(k, p, h)`. -/
theorem laneSum_at (x0 : FVec Ideal S8x32x8192 .f32) (hφ : FKind.Formats .f32)
    (hacc : (0x00000000#32 : BitVec 32) = FKind.add.neutral .f32 hφ) (p : Fin 32) (h : Fin 8192) :
    multiReduction .add [0] S32x8192 x0 0x00000000#32 reduces_S8x32x8192_S32x8192 hφ hacc (ix2 p h)
      = ∑ k : Fin 8, x0 (ix3 k p h) :=
  (Ideal.multiReduction_add_single x0 0x00000000#32 reduces_S8x32x8192_S32x8192 hφ hacc (ix2 p h)).trans
    (Finset.sum_congr rfl fun k _ => congrArg x0 (funext fun a => Fin.ext (by
      match a with | ⟨0, _⟩ => rfl | ⟨1, _⟩ => rfl | ⟨2, _⟩ => rfl)))

/-- The sum of a [32, 8192] vector over its second axis at row `p` is the sum of that row's entries. -/
theorem rowSum_at (v : FVec Ideal S32x8192 .f32) (hφ : FKind.Formats .f32)
    (hacc : (0x00000000#32 : BitVec 32) = FKind.add.neutral .f32 hφ) (p : Fin 32) :
    multiReduction .add [1] S32 v 0x00000000#32 reduces_S32x8192_S32 hφ hacc (ix1 p)
      = ∑ h : Fin 8192, v (ix2 p h) :=
  (Ideal.multiReduction_add_single v 0x00000000#32 reduces_S32x8192_S32 hφ hacc (ix1 p)).trans
    (Finset.sum_congr rfl fun h _ => congrArg v (funext fun a => Fin.ext (by
      match a with | ⟨0, _⟩ => rfl | ⟨1, _⟩ => rfl)))

/-- The summed block at `(p, h)`. -/
theorem summed_at (x0 : FVec Ideal S8x32x8192 .f32) (x1 : FVec Ideal S32x8192 .f32) (p : Fin 32) (h : Fin 8192) :
    laneSum x0 (ix2 p h) + x1 (ix2 p h) = bsum x0 x1 p h :=
  congrArg (· + x1 (ix2 p h)) (laneSum_at x0 _ _ p h)

/-- The squared summed block at `(p, h)`. -/
theorem sq_at (x0 : FVec Ideal S8x32x8192 .f32) (x1 : FVec Ideal S32x8192 .f32) (p : Fin 32) (h : Fin 8192) :
    (mulf (addf (laneSum x0) x1) (addf (laneSum x0) x1)) (ix2 p h) = bsum x0 x1 p h * bsum x0 x1 p h := by
  show (laneSum x0 (ix2 p h) + x1 (ix2 p h)) * (laneSum x0 (ix2 p h) + x1 (ix2 p h)) = _
  rw [summed_at]

/-- Row `p`'s sum of squares. -/
theorem sumSq_at (x0 : FVec Ideal S8x32x8192 .f32) (x1 : FVec Ideal S32x8192 .f32) (p : Fin 32) :
    multiReduction .add [1] S32 (mulf (addf (laneSum x0) x1) (addf (laneSum x0) x1)) 0x00000000#32
        reduces_S32x8192_S32 (.inl rfl) rfl (ix1 p)
      = ∑ h : Fin 8192, bsum x0 x1 p h * bsum x0 x1 p h :=
  (rowSum_at _ _ _ p).trans (Finset.sum_congr rfl fun h _ => sq_at x0 x1 p h)

/-- The second output's block function at `(p, q)`: the summed block. -/
theorem E4_at (x0 : FVec Ideal S8x32x8192 .f32) (x1 : FVec Ideal S32x8192 .f32) (p : Fin 32) (q : Fin 8192) :
    Value.E4 (F := Ideal) x0 x1 (ix2 p q) = bsum x0 x1 p q := by
  have e0 : Value.ix4_0 (ix2 p q) = ix2 p q :=
    funext fun a => Fin.ext (by match a with | ⟨0, _⟩ => rfl | ⟨1, _⟩ => rfl)
  have e1 : Value.ix4_1 (ix2 p q) = ix2 p q :=
    funext fun a => Fin.ext (by match a with | ⟨0, _⟩ => rfl | ⟨1, _⟩ => rfl)
  show laneSum x0 (Value.ix4_0 (ix2 p q)) + x1 (Value.ix4_1 (ix2 p q)) = _
  rw [e0, e1]
  exact summed_at x0 x1 p q

/-- The first output's block function at `(p, q)`: the summed block, scaled by the row's reciprocal root mean
    square, times the weight row at `q`. -/
theorem E3_at (x0 : FVec Ideal S8x32x8192 .f32) (x1 : FVec Ideal S32x8192 .f32) (x2 : FVec Ideal S1x8192 .f32)
    (p : Fin 32) (q : Fin 8192) :
    Value.E3 (F := Ideal) x0 x1 x2 (ix2 p q) = bsum x0 x1 p q * bscale x0 x1 p * x2 (ix2 (0 : Fin 1) q) := by
  have e0 : Value.ix3_0 (ix2 p q) = ix2 p q :=
    funext fun a => Fin.ext (by match a with | ⟨0, _⟩ => rfl | ⟨1, _⟩ => rfl)
  have e1 : Value.ix3_1 (ix2 p q) = ix2 p q :=
    funext fun a => Fin.ext (by match a with | ⟨0, _⟩ => rfl | ⟨1, _⟩ => rfl)
  have e2 : Value.ix3_2 (ix2 p q) = ix1 p :=
    funext fun a => Fin.ext (by match a with | ⟨0, _⟩ => rfl)
  have e3 : Value.ix3_3 (ix2 p q) = ix2 (0 : Fin 1) q :=
    funext fun a => Fin.ext (by match a with | ⟨0, _⟩ => rfl | ⟨1, _⟩ => rfl)
  show (laneSum x0 (Value.ix3_0 (ix2 p q)) + x1 (Value.ix3_1 (ix2 p q)))
      * Ideal.rsqrt (Ideal.div (multiReduction .add [1] S32 (mulf (addf (laneSum x0) x1) (addf (laneSum x0) x1))
          0x00000000#32 reduces_S32x8192_S32 (.inl rfl) rfl (Value.ix3_2 (ix2 p q))) (Ideal.ofBits .f32 0x46000000#32)
        + Ideal.ofBits .f32 0x3727C5AC#32)
      * x2 (Value.ix3_3 (ix2 p q)) = _
  rw [e0, e1, e2, e3, summed_at, sumSq_at]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the second output's block, at `(p, q)`. -/
theorem out4_at (x0 : FVec Ideal S8x32x8192 .f32) (x1 : FVec Ideal S32x8192 .f32) (x2 : FVec Ideal S1x8192 .f32)
    (p : Fin 32) (q : Fin 8192) : out0_4 (F := Ideal) x0 x1 x2 (ix2 p q) = bsum x0 x1 p q := by
  unfold out0_4
  refine (Value.canon4_eq _ _ _).trans ?_
  simp only [View.ld_unit_zero (S := S8x32x8192) hz3, View.ld_unit_zero (S := S32x8192) hz2]
  exact E4_at x0 x1 p q

/-- What the body leaves in the first output's block, at `(p, q)`. -/
theorem out3_at (x0 : FVec Ideal S8x32x8192 .f32) (x1 : FVec Ideal S32x8192 .f32) (x2 : FVec Ideal S1x8192 .f32)
    (p : Fin 32) (q : Fin 8192) :
    out0_3 (F := Ideal) x0 x1 x2 (ix2 p q) = bsum x0 x1 p q * bscale x0 x1 p * x2 (ix2 (0 : Fin 1) q) := by
  unfold out0_3
  refine (Value.canon3_eq _ _ _ _).trans ?_
  simp only [View.ld_unit_zero (S := S8x32x8192) hz3, View.ld_unit_zero (S := S32x8192) hz2,
    View.ld_unit_zero (S := S1x8192) hz2]
  exact E3_at x0 x1 x2 p q

/-- The second output's block is any function that agrees with the summed block at every `(p, q)`. -/
theorem out4_eq_of (x0 : FVec Ideal S8x32x8192 .f32) (x1 : FVec Ideal S32x8192 .f32) (x2 : FVec Ideal S1x8192 .f32)
    (G : S32x8192.Idx → EReal) (hG : ∀ (p : Fin 32) (q : Fin 8192), bsum x0 x1 p q = G (ix2 p q))
    (j : S32x8192.Idx) : out0_4 (F := Ideal) x0 x1 x2 j = G j := by
  obtain ⟨p, q, rfl⟩ : ∃ (p : Fin 32) (q : Fin 8192), j = ix2 p q := ⟨j 0, j 1, eq_ix2 j⟩
  exact (out4_at x0 x1 x2 p q).trans (hG p q)

/-- The first output's block is any function that agrees with the scaled, weighted block at every `(p, q)`. -/
theorem out3_eq_of (x0 : FVec Ideal S8x32x8192 .f32) (x1 : FVec Ideal S32x8192 .f32) (x2 : FVec Ideal S1x8192 .f32)
    (G : S32x8192.Idx → EReal)
    (hG : ∀ (p : Fin 32) (q : Fin 8192), bsum x0 x1 p q * bscale x0 x1 p * x2 (ix2 (0 : Fin 1) q) = G (ix2 p q))
    (j : S32x8192.Idx) : out0_3 (F := Ideal) x0 x1 x2 j = G j := by
  obtain ⟨p, q, rfl⟩ : ∃ (p : Fin 32) (q : Fin 8192), j = ix2 p q := ⟨j 0, j 1, eq_ix2 j⟩
  exact (out3_at x0 x1 x2 p q).trans (hG p q)

end Cert.KernelIdeal.Block

end
-- ==== Proof.KernelValue.lean ====
/-
  From the blocks to the two result arrays.

  The grid has 128 points. Point `t` holds tokens `32 t … 32 t + 31`: its block of the partial activations is the
  box `[0..8) × [32 t .. 32 t + 32) × [0..8192)`, its blocks of the residual and of both results are rows
  `32 t … 32 t + 31`, and the weight row is the same `[1, 8192]` block at every point. The weight row's array is the
  weight vector re-addressed as a `[1, 8192]` array before the region starts.

  So entry `(p, h)` of a point's block is entry `(32 t + p, h)` of the array, the per-block sums of the previous
  module are the specification's sums at token `32 t + p`, and what point `t` writes back to either result is rows
  `32 t … 32 t + 31` of the specification's array. Every token lies in the block of the point `token / 32`, so
  the blocks cover both result arrays, which therefore end holding the specification's arrays.
-/
import proofs.«123969_j50646254354848_1_alg».proof.Proof.Gen.KernelIdeal.Value
import proofs.«123969_j50646254354848_1_alg».proof.Proof.KernelBlock
import proofs.«123969_j50646254354848_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The block index of every window at point `t`: the token axis moves with `t`, every other axis stays at 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := lt_of_lt_of_eq t.isLt N_0

/-- The token that row `p` of point `t`'s blocks holds. -/
def tok (t : Fin cfg0.N) (p : Fin 32) : Fin 4096 := ⟨32 * t.val + p.val, by have := point_lt t; omega⟩

/-- The argument arrays, named. -/
abbrev X (c : Dev nD) : FVec Ideal S8x4096x8192 .f32 := m ((c : Thread nD τ).loc main_arg0)
abbrev R (c : Dev nD) : FVec Ideal S4096x8192 .f32 := m ((c : Thread nD τ).loc main_arg1)
abbrev W (c : Dev nD) : FVec Ideal S8192 .f32 := m ((c : Thread nD τ).loc main_arg2)

/-- Point `t`'s three input blocks, at their literal shapes. -/
abbrev xblk (c : Dev nD) (t : Fin cfg0.N) : FVec Ideal S8x32x8192 .f32 := iblk m c 0 t
abbrev rblk (c : Dev nD) (t : Fin cfg0.N) : FVec Ideal S32x8192 .f32 := iblk m c 1 t
abbrev wblk (c : Dev nD) (t : Fin cfg0.N) : FVec Ideal S1x8192 .f32 := iblk m c 2 t

/-- Entry `(k, p, h)` of point `t`'s block of the partial activations is entry `(k, 32 t + p, h)` of the array. -/
theorem xblk_at (c : Dev nD) (t : Fin cfg0.N) (k : Fin 8) (p : Fin 32) (h : Fin 8192) :
    xblk m c t (ix3 k p h) = X m c (ix3 k (tok t p) h) := by
  obtain ⟨a0, a1, a2, -⟩ := idx_facts t
  unfold xblk iblk
  rw [View.read_apply]
  show V m c main_arg0 _ = _
  rw [V_main_arg0 m c]
  refine congrArg (X m c) (funext fun a => Fin.ext ?_)
  match a with
  | ⟨0, _⟩ => show win0_0.index t (0 : Fin 3) * 8 + 1 * k.val = k.val; omega
  | ⟨1, _⟩ => show win0_0.index t (1 : Fin 3) * 32 + 1 * p.val = 32 * t.val + p.val; omega
  | ⟨2, _⟩ => show win0_0.index t (2 : Fin 3) * 8192 + 1 * h.val = h.val; omega

/-- Entry `(p, h)` of point `t`'s block of the residual is entry `(32 t + p, h)` of the array. -/
theorem rblk_at (c : Dev nD) (t : Fin cfg0.N) (p : Fin 32) (h : Fin 8192) :
    rblk m c t (ix2 p h) = R m c (ix2 (tok t p) h) := by
  obtain ⟨-, -, -, b0, b1, -⟩ := idx_facts t
  unfold rblk iblk
  rw [View.read_apply]
  show V m c main_arg1 _ = _
  rw [V_main_arg1 m c]
  refine congrArg (R m c) (funext fun a => Fin.ext ?_)
  match a with
  | ⟨0, _⟩ => show win0_1.index t (0 : Fin 2) * 32 + 1 * p.val = 32 * t.val + p.val; omega
  | ⟨1, _⟩ => show win0_1.index t (1 : Fin 2) * 8192 + 1 * h.val = h.val; omega

/-- The weight row's array at region entry: the weight vector re-addressed as `[1, 8192]`. -/
theorem weight_row (c : Dev nD) :
    (V m c main_v0 : FVec Ideal S1x8192 .f32) = shapeCast S1x8192 (W m c) shapeCasts_S8192_S1x8192 := by
  dsimp only [V, hostOps0]
  after_results
  rfl

/-- Entry `(0, h)` of the weight row's block, at any point, is the weight at `h`. -/
theorem wblk_at (c : Dev nD) (t : Fin cfg0.N) (h : Fin 8192) :
    wblk m c t (ix2 (0 : Fin 1) h) = W m c (ix1 h) := by
  obtain ⟨-, -, -, -, -, w0, w1, -⟩ := idx_facts t
  unfold wblk iblk
  rw [View.read_apply]
  show V m c main_v0 _ = _
  rw [weight_row m c]
  refine Eq.trans (congrArg (shapeCast S1x8192 (W m c) shapeCasts_S8192_S1x8192) (funext fun a => Fin.ext ?_))
    (shapeCast_a_1a_apply (W m c) shapeCasts_S8192_S1x8192 (0 : Fin 1) h)
  match a with
  | ⟨0, _⟩ => show win0_2.index t (0 : Fin 2) * 1 + 1 * 0 = 0; omega
  | ⟨1, _⟩ => show win0_2.index t (1 : Fin 2) * 8192 + 1 * h.val = h.val; omega

/-- A block's summed entry is the specification's at the block's token. -/
theorem bsum_blk (c : Dev nD) (t : Fin cfg0.N) (p : Fin 32) (h : Fin 8192) :
    bsum (xblk m c t) (rblk m c t) p h = Spec.summed (X m c) (R m c) (tok t p) h := by
  show (∑ k : Fin 8, xblk m c t (ix3 k p h)) + rblk m c t (ix2 p h)
    = (∑ k : Fin 8, X m c (ix3 k (tok t p) h)) + R m c (ix2 (tok t p) h)
  rw [rblk_at m c t p h]
  exact congrArg (· + R m c (ix2 (tok t p) h)) (Finset.sum_congr rfl fun k _ => xblk_at m c t k p h)

/-- A block row's scale is the specification's at the row's token. -/
theorem bscale_blk (c : Dev nD) (t : Fin cfg0.N) (p : Fin 32) :
    bscale (xblk m c t) (rblk m c t) p = Spec.scale (X m c) (R m c) (tok t p) := by
  show Ideal.rsqrt (Ideal.div (∑ h : Fin 8192, bsum (xblk m c t) (rblk m c t) p h * bsum (xblk m c t) (rblk m c t) p h)
        (Ideal.ofBits .f32 0x46000000#32) + Ideal.ofBits .f32 0x3727C5AC#32)
    = Ideal.rsqrt (Ideal.div (∑ h : Fin 8192, Spec.summed (X m c) (R m c) (tok t p) h * Spec.summed (X m c) (R m c) (tok t p) h)
        (Ideal.ofBits .f32 0x46000000#32) + Ideal.ofBits .f32 0x3727C5AC#32)
  exact congrArg (fun s => Ideal.rsqrt (Ideal.div s (Ideal.ofBits .f32 0x46000000#32) + Ideal.ofBits .f32 0x3727C5AC#32))
    (Finset.sum_congr rfl fun h _ => by rw [bsum_blk m c t p h])

/-! ## The second result: the summed array -/

/-- Row `p`, column `q` of point `t`'s block of the second result sits at `(32 t + p, q)` of the array. -/
theorem emb4_at (t : Fin cfg0.N) (p : Fin 32) (q : Fin 8192) :
    ((cfg0.win 4).blk t).view.emb (ix2 p q) = ix2 (tok t p) q := by
  obtain ⟨-, -, -, -, -, -, -, -, -, d0, d1⟩ := idx_facts t
  refine funext fun a => Fin.ext ?_
  match a with
  | ⟨0, _⟩ => show win0_4.index t (0 : Fin 2) * 32 + 1 * p.val = 32 * t.val + p.val; omega
  | ⟨1, _⟩ => show win0_4.index t (1 : Fin 2) * 8192 + 1 * q.val = q.val; omega

/-- What point `t` writes back to the second result is its rows of the specification's summed array. -/
theorem flushed4_eq (c : Dev nD) (t : Fin cfg0.N) :
    (dats m 0 c).flushed 4 t
      = ((cfg0.win 4).blk t).view.read (Elt Ideal) (Spec.residualOut (X m c) (R m c)) := by
  rw [Value.flushed4]
  funext j
  refine out4_eq_of (xblk m c t) (rblk m c t) (wblk m c t)
    (fun y => Spec.residualOut (X m c) (R m c) (((cfg0.win 4).blk t).view.emb y)) (fun p q => ?_) j
  show _ = Spec.residualOut (X m c) (R m c) (((cfg0.win 4).blk t).view.emb (ix2 p q))
  rw [emb4_at t p q]
  exact bsum_blk m c t p q

/-- An entry of the array is in point `t`'s block of the second result iff each coordinate is in the block's range. -/
theorem mem_blk4 (t : Fin cfg0.N) (i : S4096x8192.Idx) :
    i ∈ ((cfg0.win 4).blk t).view.set ↔ ∀ a : Fin 2, win0_4.index t a * S32x8192.size a ≤ (i a).val
      ∧ (i a).val < win0_4.index t a * S32x8192.size a + S32x8192.size a := by
  show i ∈ ((View.whole main_v1_1).slice (win0_4.rect t)).set ↔ _
  rw [View.set_slice_whole, Rect.mem_set_unit]
  exact Iff.rfl

/-- Every entry of the second result lies in the block of the point `token / 32`, which writes back. -/
theorem cover4 (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  have hN : cfg0.N = 128 := N_0
  refine ⟨⟨(i 0).val / 32, by rw [hN]; omega⟩, flush0_4 _, ?_⟩
  obtain ⟨-, -, -, -, -, -, -, -, -, d0, d1⟩ := idx_facts ⟨(i 0).val / 32, by rw [hN]; omega⟩
  rw [mem_blk4]
  intro a
  match a with
  | ⟨0, _⟩ =>
    show win0_4.index ⟨(i 0).val / 32, _⟩ (0 : Fin 2) * 32 ≤ (i 0).val
      ∧ (i 0).val < win0_4.index ⟨(i 0).val / 32, _⟩ (0 : Fin 2) * 32 + 32
    rw [d0]; show (i 0).val / 32 * 32 ≤ (i 0).val ∧ (i 0).val < (i 0).val / 32 * 32 + 32; omega
  | ⟨1, _⟩ =>
    show win0_4.index ⟨(i 0).val / 32, _⟩ (1 : Fin 2) * 8192 ≤ (i 1).val
      ∧ (i 1).val < win0_4.index ⟨(i 0).val / 32, _⟩ (1 : Fin 2) * 8192 + 8192
    rw [d1]; omega

/-- The second result array after the run is the specification's summed array. -/
theorem final4 (c : Dev nD) : (dats m 0 c).arrAt 4 cfg0.N = Spec.residualOut (X m c) (R m c) :=
  (dats m 0 c).arrAt_eq_of_cover 4 (Spec.residualOut (X m c) (R m c)) (fun t _ => flushed4_eq m c t) cover4

/-! ## The first result: the normalized, weighted array -/

/-- Row `p`, column `q` of point `t`'s block of the first result sits at `(32 t + p, q)` of the array. -/
theorem emb3_at (t : Fin cfg0.N) (p : Fin 32) (q : Fin 8192) :
    ((cfg0.win 3).blk t).view.emb (ix2 p q) = ix2 (tok t p) q := by
  obtain ⟨-, -, -, -, -, -, -, e0, e1, -⟩ := idx_facts t
  refine funext fun a => Fin.ext ?_
  match a with
  | ⟨0, _⟩ => show win0_3.index t (0 : Fin 2) * 32 + 1 * p.val = 32 * t.val + p.val; omega
  | ⟨1, _⟩ => show win0_3.index t (1 : Fin 2) * 8192 + 1 * q.val = q.val; omega

/-- What point `t` writes back to the first result is its rows of the specification's normalized array. -/
theorem flushed3_eq (c : Dev nD) (t : Fin cfg0.N) :
    (dats m 0 c).flushed 3 t
      = ((cfg0.win 3).blk t).view.read (Elt Ideal) (Spec.normed (X m c) (R m c) (W m c)) := by
  rw [Value.flushed3]
  funext j
  refine out3_eq_of (xblk m c t) (rblk m c t) (wblk m c t)
    (fun y => Spec.normed (X m c) (R m c) (W m c) (((cfg0.win 3).blk t).view.emb y)) (fun p q => ?_) j
  show _ = Spec.normed (X m c) (R m c) (W m c) (((cfg0.win 3).blk t).view.emb (ix2 p q))
  rw [emb3_at t p q, bsum_blk m c t p q, bscale_blk m c t p, wblk_at m c t q]
  rfl

/-- An entry of the array is in point `t`'s block of the first result iff each coordinate is in the block's range. -/
theorem mem_blk3 (t : Fin cfg0.N) (i : S4096x8192.Idx) :
    i ∈ ((cfg0.win 3).blk t).view.set ↔ ∀ a : Fin 2, win0_3.index t a * S32x8192.size a ≤ (i a).val
      ∧ (i a).val < win0_3.index t a * S32x8192.size a + S32x8192.size a := by
  show i ∈ ((View.whole main_v1_0).slice (win0_3.rect t)).set ↔ _
  rw [View.set_slice_whole, Rect.mem_set_unit]
  exact Iff.rfl

/-- Every entry of the first result lies in the block of the point `token / 32`, which writes back. -/
theorem cover3 (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  have hN : cfg0.N = 128 := N_0
  refine ⟨⟨(i 0).val / 32, by rw [hN]; omega⟩, flush0_3 _, ?_⟩
  obtain ⟨-, -, -, -, -, -, -, e0, e1, -⟩ := idx_facts ⟨(i 0).val / 32, by rw [hN]; omega⟩
  rw [mem_blk3]
  intro a
  match a with
  | ⟨0, _⟩ =>
    show win0_3.index ⟨(i 0).val / 32, _⟩ (0 : Fin 2) * 32 ≤ (i 0).val
      ∧ (i 0).val < win0_3.index ⟨(i 0).val / 32, _⟩ (0 : Fin 2) * 32 + 32
    rw [e0]; show (i 0).val / 32 * 32 ≤ (i 0).val ∧ (i 0).val < (i 0).val / 32 * 32 + 32; omega
  | ⟨1, _⟩ =>
    show win0_3.index ⟨(i 0).val / 32, _⟩ (1 : Fin 2) * 8192 ≤ (i 1).val
      ∧ (i 1).val < win0_3.index ⟨(i 0).val / 32, _⟩ (1 : Fin 2) * 8192 + 8192
    rw [e1]; omega

/-- The first result array after the run is the specification's normalized array. -/
theorem final3 (c : Dev nD) : (dats m 0 c).arrAt 3 cfg0.N = Spec.normed (X m c) (R m c) (W m c) :=
  (dats m 0 c).arrAt_eq_of_cover 3 (Spec.normed (X m c) (R m c) (W m c)) (fun t _ => flushed3_eq m c t) cover3

/-! ## The run -/

/-- Every weakly fair execution of the idealized kernel terminates with the two result arrays at the
    specification's arrays of the arguments, and the arguments unchanged. -/
theorem run : θ_run defs (onTc (τ := τ) (main (F := Ideal))) ⟨m, fun _ => 0, ρ⟩ fun r => ∀ c : Dev nD,
      r.2.mem ((c : Thread nD τ).loc main_v1_0) = Spec.normed (X m c) (R m c) (W m c)
      ∧ r.2.mem ((c : Thread nD τ).loc main_v1_1) = Spec.residualOut (X m c) (R m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole

end
-- ==== Proof.lean ====
/-
  A fused all-reduce, residual add and RMS normalization, against its plain array reference.

  Inputs: eight partial activations `x` of shape [8, 4096, 8192], a residual `r` of shape [4096, 8192] and a weight
  row `w` of shape [8192]. Both programs return

    summed[t, h]  =  (sum over p of x[p, t, h]) + r[t, h]                         (the second result)
    normed[t, h]  =  summed[t, h] * rsqrt( (sum over h' of summed[t, h']^2) / 8192 + eps ) * w[h]   (the first)

  The kernel works on 128 blocks of 32 tokens, each with the whole hidden axis resident, so a token's mean square is
  computed inside one block; the reference works on whole arrays. At the extended reals the two sums over an axis
  are finite sums in either program, the division, the reciprocal root and the two constants are the same on both
  sides, and the products are grouped the same way, so the two programs are one function of the arguments and no
  finiteness of the inputs is used.

  Proof/Spec.lean states that function. Proof/RefValue.lean reads the reference's run one operation at a time down
  to it. Proof/KernelBlock.lean reads what one grid point stores, entry by entry; Proof/KernelValue.lean places each
  block at its rows of the arrays and shows that the blocks cover both results. Below, the three programs run and
  keep their arguments, the idealization rewrote nothing, and the two idealized programs end with equal results.
-/
import proofs.«123969_j50646254354848_1_alg».proof.Defs
import proofs.«123969_j50646254354848_1_alg».proof.Proof.Gen.Kernel
import proofs.«123969_j50646254354848_1_alg».proof.Proof.Gen.Kernel.Skeleton
import proofs.«123969_j50646254354848_1_alg».proof.Proof.Gen.Kernel.Launch
import proofs.«123969_j50646254354848_1_alg».proof.Proof.Gen.Kernel.Points
import proofs.«123969_j50646254354848_1_alg».proof.Proof.Gen.Kernel.Frame
import proofs.«123969_j50646254354848_1_alg».proof.Proof.Gen.KernelIdeal
import proofs.«123969_j50646254354848_1_alg».proof.Proof.Gen.KernelIdeal.Skeleton
import proofs.«123969_j50646254354848_1_alg».proof.Proof.Gen.KernelIdeal.Launch
import proofs.«123969_j50646254354848_1_alg».proof.Proof.Gen.KernelIdeal.Points
import proofs.«123969_j50646254354848_1_alg».proof.Proof.Gen.KernelIdeal.Frame
import proofs.«123969_j50646254354848_1_alg».proof.Proof.Gen.ReferenceIdeal
import proofs.«123969_j50646254354848_1_alg».proof.Proof.Gen.Pre_finite_inputs
import proofs.«123969_j50646254354848_1_alg».proof.Proof.Gen.KernelIdeal.Value
import proofs.«123969_j50646254354848_1_alg».proof.Proof.Gen.ReferenceIdeal.Run
import proofs.«123969_j50646254354848_1_alg».proof.Proof.Gen.ReferenceIdeal.Read
import proofs.«123969_j50646254354848_1_alg».proof.Proof.Spec
import proofs.«123969_j50646254354848_1_alg».proof.Proof.RefValue
import proofs.«123969_j50646254354848_1_alg».proof.Proof.KernelBlock
import proofs.«123969_j50646254354848_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation, so there is nothing to restate. -/
theorem preserves : Cert.preserves_Kernel_KernelIdeal := trivial

/-- From memories that agree on the arguments, the idealized kernel ends with its two result arrays at the
    specification's arrays of its arguments, and the idealized reference at the same arrays of its own arguments,
    which are the same arguments. -/
theorem algebraic : Cert.algebraic_KernelIdeal_ReferenceIdeal := by
  intro m ρ m' ρ' _ hagree
  refine ⟨fun c => Cert.Spec.normed (Cert.KernelIdeal.Whole.X m c) (Cert.KernelIdeal.Whole.R m c) (Cert.KernelIdeal.Whole.W m c),
    fun c => Cert.Spec.residualOut (Cert.KernelIdeal.Whole.X m c) (Cert.KernelIdeal.Whole.R m c),
    Cert.KernelIdeal.Whole.run m ρ, ?_⟩
  refine (θ_run Cert.ReferenceIdeal.defs _ _).mono (fun _ h c => ?_)
    (Cert.ReferenceIdeal.Value.run (F := Ideal) m' ρ')
  refine ⟨(h c).1.trans ?_, (h c).2.1.trans ?_, (h c).2.2⟩
  · rw [Cert.ReferenceIdeal.Read.val_main_v14_eq, Cert.ReferenceIdeal.RefValue.normed_eq,
      (hagree c).1, (hagree c).2.1, (hagree c).2.2]
  · rw [Cert.ReferenceIdeal.Read.val_main_v1_eq, Cert.ReferenceIdeal.RefValue.residual_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
